-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel

variable [Facts]

def fn {F : FTy → Type} [FloatOps F] (main_arg0 : FVec F S8x128x128x64 .f32) (main_arg1 : IVec S8x128x128x64 32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_c_0 : IVec S_ 32 := constantI S_ 32 0#32
  let main_v4 : IVec S8x128x128x64 32 := broadcastInDim S8x128x128x64 ![] bcast_S_S8x128x128x64 main_c_0
  let main_v5 : IVec S8x128x128x64 1 := cmpi .sge main_arg1 main_v4
  let main_c_1 : IVec S_ 32 := constantI S_ 32 4194304#32
  let main_v6 : IVec S8x128x128x64 32 := broadcastInDim S8x128x128x64 ![] bcast_S_S8x128x128x64 main_c_1
  let main_v7 : IVec S8x128x128x64 1 := cmpi .slt main_arg1 main_v6
  let main_v8 : IVec S8x128x128x64 1 := andi main_v5 main_v7
  let main_c_2 : IVec S_ 1 := constantI S_ 1 1#1
  let main_v9 : IVec S_ 1 := (fun x v => Host.reduce IntOp.andi x v reducesTo_S8x128x128x64_S_d0_1_2_3 h_S_) main_v8 main_c_2
  let main_v10 : IVec S_ 1 := andi main_v3 main_v9
  main_v10
-- ==== Kernel.lean ====
abbrev S8x128x128x64 : Shape := ⟨4, ![8, 128, 128, 64]⟩
abbrev S1x128x128x64 : Shape := ⟨4, ![1, 128, 128, 64]⟩
abbrev S8388608 : Shape := ⟨1, ![8388608]⟩
abbrev S_ : Shape := ⟨0, ![]⟩
abbrev S33554432 : Shape := ⟨1, ![33554432]⟩
abbrev S8388608x1 : Shape := ⟨2, ![8388608, 1]⟩
abbrev S8x256x256x64 : Shape := ⟨4, ![8, 256, 256, 64]⟩

abbrev nBuf : Space → Nat
  | .hbm => 17
  | .vmem => 4
  | .smem => 0
  | _ => 0

abbrev bufTy : (tb : Table) → Fin (tcTables nBuf tb) → BufTy
  | .hbm, ⟨0, _⟩ => ⟨S8x128x128x64, .f32⟩
  | .hbm, ⟨1, _⟩ => ⟨S8x128x128x64, .i32⟩
  | .hbm, ⟨2, _⟩ => ⟨S8x128x128x64, .i32⟩
  | .hbm, ⟨3, _⟩ => ⟨S8388608, .f32⟩
  | .hbm, ⟨4, _⟩ => ⟨S8388608, .i32⟩
  | .hbm, ⟨5, _⟩ => ⟨S_, .f32⟩
  | .hbm, ⟨6, _⟩ => ⟨S33554432, .f32⟩
  | .hbm, ⟨7, _⟩ => ⟨S_, .i32⟩
  | .hbm, ⟨8, _⟩ => ⟨S8388608, .i32⟩
  | .hbm, ⟨9, _⟩ => ⟨S8388608, .i1⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S33554432, .f32⟩
  | .hbm, ⟨16, _⟩ => ⟨S8x256x256x64, .f32⟩
  | .local _ .vmem, ⟨0, _⟩ => ⟨S1x128x128x64, .i32⟩
  | .local _ .vmem, ⟨1, _⟩ => ⟨S1x128x128x64, .i32⟩
  | .local _ .vmem, ⟨2, _⟩ => ⟨S1x128x128x64, .i32⟩
  | .local _ .vmem, ⟨3, _⟩ => ⟨S1x128x128x64, .i32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S8x128x128x64_S8388608 : S8x128x128x64.ShapeCasts S8388608
  bcast_S_S33554432 : S_.BroadcastsInDim S33554432 (![] : Fin 0 → Fin S33554432.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S33554432_S8x256x256x64 : S33554432.ShapeCasts S8x256x256x64
  scatter_S33554432_S8388608x1_S8388608_n_0_0_1_wf : ScatterDims.WF S33554432 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S8x128x128x64.size a
  hwx0_0 : ∀ i : grid0.Coords, EltTy.bits .i32 = 32 ∨ (Rect.block (s := S8x128x128x64) S1x128x128x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x64.size a ≤ S8x128x128x64.size a
  hwx0_1 : ∀ i : grid0.Coords, EltTy.bits .i32 = 32 ∨ (Rect.block (s := S8x128x128x64) S1x128x128x64.size (cc0_transform_1 i) (hinb0_1 i)).WholeWords (EltTy.packing .i32)

variable [Facts₀]

def scatter_S33554432_S8388608x1_S8388608_n_0_0_1 : ScatterDims S33554432 S8388608x1 S8388608 where
  updateWindowDims := []
  insertedWindowDims := [0]
  scatterDimsToOperandDims := [0]
  indexVectorDim := 1
  wf := scatter_S33554432_S8388608x1_S8388608_n_0_0_1_wf

abbrev win0_0 : Pipeline.Window sig grid0 :=
  Pipeline.Window.ofSpec (Memref.whole main_arg1) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S8388608 : Shape := ⟨1, ![8388608]⟩
abbrev S8 : Shape := ⟨1, ![8]⟩
abbrev S8x1048576 : Shape := ⟨2, ![8, 1048576]⟩
abbrev S_ : Shape := ⟨0, ![]⟩
abbrev S33554432 : Shape := ⟨1, ![33554432]⟩
abbrev S8388608x1 : Shape := ⟨2, ![8388608, 1]⟩
abbrev S8x256x256x64 : Shape := ⟨4, ![8, 256, 256, 64]⟩

abbrev nBuf : Space → Nat
  | .hbm => 133
  | .vmem => 0
  | .smem => 0
  | _ => 0

abbrev hbmTy0_0 (i : Nat) : BufTy := match i % 128 with
  | 0 => ⟨S8x128x128x64, .f32⟩
  | 1 => ⟨S8x128x128x64, .i32⟩
  | 2 => ⟨S8388608, .i32⟩
  | 3 => ⟨S8388608, .f32⟩
  | 4 => ⟨S8, .i32⟩
  | 5 => ⟨S8x1048576, .i32⟩
  | 6 => ⟨S8388608, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S8388608, .i32⟩
  | 14 => ⟨S8388608, .i32⟩
  | 15 => ⟨S_, .i32⟩
  | 16 => ⟨S8388608, .i32⟩
  | 17 => ⟨S8388608, .i1⟩
  | 18 => ⟨S_, .i32⟩
  | 19 => ⟨S8388608, .i32⟩
  | 20 => ⟨S8388608, .i1⟩
  | 21 => ⟨S_, .i32⟩
  | 22 => ⟨S_, .i1⟩
  | 23 => ⟨S8388608, .i1⟩
  | 24 => ⟨S8388608, .i1⟩
  | 25 => ⟨S8388608, .i1⟩
  | 26 => ⟨S8388608, .i32⟩
  | 27 => ⟨S8388608, .i32⟩
  | 28 => ⟨S8388608, .i32⟩
  | 29 => ⟨S_, .i32⟩
  | 30 => ⟨S_, .i32⟩
  | 31 => ⟨S8388608, .i32⟩
  | 32 => ⟨S8388608, .i32⟩
  | 33 => ⟨S8388608, .i32⟩
  | 34 => ⟨S_, .i32⟩
  | 35 => ⟨S8388608, .i32⟩
  | 36 => ⟨S8388608, .i1⟩
  | 37 => ⟨S8388608, .i32⟩
  | 38 => ⟨S8388608, .i32⟩
  | 39 => ⟨S_, .i32⟩
  | 40 => ⟨S8388608, .i32⟩
  | 41 => ⟨S8388608, .i1⟩
  | 42 => ⟨S8388608, .i1⟩
  | 43 => ⟨S_, .i32⟩
  | 44 => ⟨S8388608, .i32⟩
  | 45 => ⟨S8388608, .i32⟩
  | 46 => ⟨S8388608, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S8388608, .i32⟩
  | 54 => ⟨S8388608, .i32⟩
  | 55 => ⟨S_, .i32⟩
  | 56 => ⟨S8388608, .i32⟩
  | 57 => ⟨S8388608, .i1⟩
  | 58 => ⟨S_, .i32⟩
  | 59 => ⟨S8388608, .i32⟩
  | 60 => ⟨S8388608, .i1⟩
  | 61 => ⟨S_, .i32⟩
  | 62 => ⟨S_, .i1⟩
  | 63 => ⟨S8388608, .i1⟩
  | 64 => ⟨S8388608, .i1⟩
  | 65 => ⟨S8388608, .i1⟩
  | 66 => ⟨S8388608, .i32⟩
  | 67 => ⟨S8388608, .i32⟩
  | 68 => ⟨S8388608, .i32⟩
  | 69 => ⟨S_, .i32⟩
  | 70 => ⟨S_, .i32⟩
  | 71 => ⟨S8388608, .i32⟩
  | 72 => ⟨S8388608, .i32⟩
  | 73 => ⟨S8388608, .i32⟩
  | 74 => ⟨S_, .i32⟩
  | 75 => ⟨S8388608, .i32⟩
  | 76 => ⟨S8388608, .i1⟩
  | 77 => ⟨S8388608, .i32⟩
  | 78 => ⟨S8388608, .i32⟩
  | 79 => ⟨S_, .i32⟩
  | 80 => ⟨S8388608, .i32⟩
  | 81 => ⟨S8388608, .i1⟩
  | 82 => ⟨S8388608, .i1⟩
  | 83 => ⟨S_, .i32⟩
  | 84 => ⟨S8388608, .i32⟩
  | 85 => ⟨S8388608, .i32⟩
  | 86 => ⟨S8388608, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S8388608, .i32⟩
  | 94 => ⟨S8388608, .i32⟩
  | 95 => ⟨S_, .i32⟩
  | 96 => ⟨S8388608, .i32⟩
  | 97 => ⟨S8388608, .i1⟩
  | 98 => ⟨S_, .i32⟩
  | 99 => ⟨S8388608, .i32⟩
  | 100 => ⟨S8388608, .i1⟩
  | 101 => ⟨S_, .i32⟩
  | 102 => ⟨S_, .i1⟩
  | 103 => ⟨S8388608, .i1⟩
  | 104 => ⟨S8388608, .i1⟩
  | 105 => ⟨S8388608, .i1⟩
  | 106 => ⟨S8388608, .i32⟩
  | 107 => ⟨S8388608, .i32⟩
  | 108 => ⟨S8388608, .i32⟩
  | 109 => ⟨S_, .i32⟩
  | 110 => ⟨S8388608, .i32⟩
  | 111 => ⟨S8388608, .i32⟩
  | 112 => ⟨S8388608, .i32⟩
  | 113 => ⟨S_, .i32⟩
  | 114 => ⟨S8388608, .i32⟩
  | 115 => ⟨S8388608, .i32⟩
  | 116 => ⟨S8388608, .i32⟩
  | 117 => ⟨S_, .i32⟩
  | 118 => ⟨S8388608, .i32⟩
  | 119 => ⟨S8388608, .i32⟩
  | 120 => ⟨S8388608, .i32⟩
  | 121 => ⟨S_, .f32⟩
  | 122 => ⟨S33554432, .f32⟩
  | 123 => ⟨S_, .i32⟩
  | 124 => ⟨S8388608, .i32⟩
  | 125 => ⟨S8388608, .i1⟩
  | 126 => ⟨S_, .i32⟩
  | 127 => ⟨S8388608, .i32⟩
  | _ => ⟨S8x128x128x64, .f32⟩

abbrev hbmTy0_1 (i : Nat) : BufTy := match i % 128 with
  | 0 => ⟨S8388608, .i32⟩
  | 1 => ⟨S8388608, .i32⟩
  | 2 => ⟨S8388608x1, .i32⟩
  | 3 => ⟨S33554432, .f32⟩
  | 4 => ⟨S8x256x256x64, .f32⟩
  | _ => ⟨S8x128x128x64, .f32⟩

abbrev hbmTy (i : Nat) : BufTy := match i / 128 with
  | 0 => hbmTy0_0 i
  | 1 => hbmTy0_1 i
  | _ => ⟨S8x128x128x64, .f32⟩

abbrev bufTy : (tb : Table) → Fin (tcTables nBuf tb) → BufTy
  | .hbm, ⟨i, _⟩ => hbmTy i
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v5 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v6 : Ref sig .tc := ⟨.hbm, 46, rfl⟩
abbrev main_c_1 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_v5 : Ref sig .tc := ⟨.hbm, 56, rfl⟩
abbrev main_call2_v6 : Ref sig .tc := ⟨.hbm, 57, rfl⟩
abbrev main_call2_c_2 : Ref sig .tc := ⟨.hbm, 58, rfl⟩
abbrev main_call2_v7 : Ref sig .tc := ⟨.hbm, 59, rfl⟩
abbrev main_call2_v8 : Ref sig .tc := ⟨.hbm, 60, rfl⟩
abbrev main_call2_c_3 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_v7 : Ref sig .tc := ⟨.hbm, 68, rfl⟩
abbrev main_c_2 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v8 : Ref sig .tc := ⟨.hbm, 86, rfl⟩
abbrev main_c_3 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v9 : Ref sig .tc := ⟨.hbm, 108, rfl⟩
abbrev main_c_4 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_c_5 : Ref sig .tc := ⟨.hbm, 113, rfl⟩
abbrev main_v13 : Ref sig .tc := ⟨.hbm, 114, rfl⟩
abbrev main_v14 : Ref sig .tc := ⟨.hbm, 115, rfl⟩
abbrev main_v15 : Ref sig .tc := ⟨.hbm, 116, rfl⟩
abbrev main_c_6 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_cst : Ref sig .tc := ⟨.hbm, 121, rfl⟩
abbrev main_v19 : Ref sig .tc := ⟨.hbm, 122, rfl⟩
abbrev main_c_7 : Ref sig .tc := ⟨.hbm, 123, rfl⟩
abbrev main_v20 : Ref sig .tc := ⟨.hbm, 124, rfl⟩
abbrev main_v21 : Ref sig .tc := ⟨.hbm, 125, rfl⟩
abbrev main_c_8 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩

abbrev nD : Nat := 1
abbrev τ : Topo := Topo.v7x

variable {F : FTy → Type} [FloatOps F]

class Facts₀ : Prop where
  shapeCasts_S8x128x128x64_S8388608 : S8x128x128x64.ShapeCasts S8388608
  bcast_S8_S8x1048576_0 : S8.BroadcastsInDim S8x1048576 (![0] : Fin 1 → Fin S8x1048576.rank)
  shapeCasts_S8x1048576_S8388608 : S8x1048576.ShapeCasts S8388608
  bcast_S_S8388608 : S_.BroadcastsInDim S8388608 (![] : Fin 0 → Fin S8388608.rank)
  bcast_S_S33554432 : S_.BroadcastsInDim S33554432 (![] : Fin 0 → Fin S33554432.rank)
  bcast_S8388608_S8388608x1_0 : S8388608.BroadcastsInDim S8388608x1 (![0] : Fin 1 → Fin S8388608x1.rank)
  shapeCasts_S33554432_S8x256x256x64 : S33554432.ShapeCasts S8x256x256x64
  scatter_S33554432_S8388608x1_S8388608_n_0_0_1_wf : ScatterDims.WF S33554432 S8388608x1 S8388608 [] [0] [0] 1

variable [Facts₀]

def scatter_S33554432_S8388608x1_S8388608_n_0_0_1 : ScatterDims S33554432 S8388608x1 S8388608 where
  updateWindowDims := []
  insertedWindowDims := [0]
  scatterDimsToOperandDims := [0]
  indexVectorDim := 1
  wf := scatter_S33554432_S8388608x1_S8388608_n_0_0_1_wf

class Facts : Prop extends Facts₀ where

variable [Facts]
-- ==== Proof.Spec.lean ====
/-
  The two programs compared, as functions of the argument arrays.

  The operator is a max-unpooling scatter: an input `x : f32[8,128,128,64]` of pooled values and an
  `argmax : i32[8,128,128,64]` of flat positions inside each image's upsampled volume `[256,256,64]`
  (so `0 ≤ argmax < 256·256·64 = 4194304`, the precondition's second conjunct). Both programs add every
  `x` entry into a zero array of `8·4194304` entries at a flat position and reshape the sum to
  `[8,256,256,64]`; they differ only in how the position is computed from `argmax`:

  * the kernel adds the image offset directly: at array index `(b,i,j,k)` the position is
    `argmax + b·4194304` (`kerIdx`);
  * the reference decodes `argmax` into `h = (a mod 4194304) div 16384`, `w = (a mod 16384) div 64`,
    `c = a mod 64` with floor division and floor remainder as jnp lowers them (`fdivF`, `remF`), and
    recombines `((b·256 + h)·256 + w)·64 + c` with `b = n div 1048576` at flat index `n` (`refIdx`).

  Everything after the position — the normalisation of negative positions, the index column, the
  accumulating scatter into zeros and the final reshape — is the same text in both programs: `tail`.
-/
import Idealize.ShloMosaic.PureOps

noncomputable section

namespace Cert.Unpool

open Idealize.ShloMosaic

abbrev SIn : Shape := ⟨4, ![8, 128, 128, 64]⟩
abbrev SFlat : Shape := ⟨1, ![8388608]⟩
abbrev S0 : Shape := ⟨0, ![]⟩
abbrev SB : Shape := ⟨1, ![8]⟩
abbrev SB2 : Shape := ⟨2, ![8, 1048576]⟩
abbrev SOutFlat : Shape := ⟨1, ![33554432]⟩
abbrev SIdx2 : Shape := ⟨2, ![8388608, 1]⟩
abbrev SOut : Shape := ⟨4, ![8, 256, 256, 64]⟩

/-- A scalar word at every flat index. -/
abbrev splat (hb : S0.BroadcastsInDim SFlat (![] : Fin 0 → Fin SFlat.rank)) (n : BitVec 32) : IVec SFlat 32 :=
  broadcastInDim SFlat ![] hb (constantI S0 32 n)

/-- The kernel's position: the flat position inside the image plus the image's offset. -/
def kerIdx (a : IVec SIn 32) : IVec SIn 32 := fun j => a j + BitVec.ofNat 32 (j 0).val * 4194304#32

/-- jnp's `a % d` by a scalar `d`: the truncated remainder by `d` (by `1` where `d = 0`), plus `d` where it is
    nonzero and its sign differs from `d`'s. -/
def remF (hb : S0.BroadcastsInDim SFlat (![] : Fin 0 → Fin SFlat.rank)) (a : IVec SFlat 32) (d : IVec S0 32) : IVec SFlat 32 :=
  let d1 : IVec S0 32 := select (cmpi .eq d (constantI S0 32 0#32)) (constantI S0 32 1#32) d
  let r : IVec SFlat 32 := Host.remsi a (broadcastInDim SFlat ![] hb d1)
  let zero : IVec SFlat 32 := splat hb 0#32
  select (andi (cmpi .ne (cmpi .slt r zero) (broadcastInDim SFlat ![] hb (cmpi .slt d1 (constantI S0 32 0#32)))) (cmpi .ne r zero))
    (addi r (broadcastInDim SFlat ![] hb d1)) r

/-- jnp's `a // d` by a scalar `d`: the truncated quotient, less one where the signs differ and the division is
    inexact. -/
def fdivF (hb : S0.BroadcastsInDim SFlat (![] : Fin 0 → Fin SFlat.rank)) (a : IVec SFlat 32) (d : IVec S0 32) : IVec SFlat 32 :=
  let db : IVec SFlat 32 := broadcastInDim SFlat ![] hb d
  let q : IVec SFlat 32 := Host.divsi a db
  select (andi (cmpi .ne (signi a) (broadcastInDim SFlat ![] hb (signi d))) (cmpi .ne (Host.remsi a db) (splat hb 0#32)))
    (subi q (splat hb 1#32)) q

/-- The image number of each flat index: `n div 1048576`, as `repeat(arange 8, 1048576)`. -/
def batchOf (hbB : SB.BroadcastsInDim SB2 (![0] : Fin 1 → Fin SB2.rank)) (hcB : SB2.ShapeCasts SFlat) : IVec SFlat 32 :=
  shapeCast SFlat (broadcastInDim SB2 ![0] hbB (iotaInDim SB 32 0)) hcB

/-- The reference's position: `argmax` decoded into row, column and channel and recombined with the image number. -/
def refIdx (hb : S0.BroadcastsInDim SFlat (![] : Fin 0 → Fin SFlat.rank)) (hbB : SB.BroadcastsInDim SB2 (![0] : Fin 1 → Fin SB2.rank))
    (hcB : SB2.ShapeCasts SFlat) (a : IVec SFlat 32) : IVec SFlat 32 :=
  let h : IVec SFlat 32 := fdivF hb (remF hb a (constantI S0 32 4194304#32)) (constantI S0 32 16384#32)
  let w : IVec SFlat 32 := fdivF hb (remF hb a (constantI S0 32 16384#32)) (constantI S0 32 64#32)
  let c : IVec SFlat 32 := remF hb a (constantI S0 32 64#32)
  addi (muli (addi (muli (addi (muli (batchOf hbB hcB) (splat hb 256#32)) h) (splat hb 256#32)) w) (splat hb 64#32)) c

variable {F : FTy → Type} [FloatOps F]

/-- What both programs do with the positions: a negative position is taken from the end, the positions become an
    index column, every value is added into a zero array at its position, and the sums are reshaped. -/
def tail (hb : S0.BroadcastsInDim SFlat (![] : Fin 0 → Fin SFlat.rank)) (hbo : S0.BroadcastsInDim SOutFlat (![] : Fin 0 → Fin SOutFlat.rank))
    (hb2 : SFlat.BroadcastsInDim SIdx2 (![0] : Fin 1 → Fin SIdx2.rank)) (hc : SOutFlat.ShapeCasts SOut)
    (sd : ScatterDims SOutFlat SIdx2 SFlat) (idx : IVec SFlat 32) (vals : FVec F SFlat .f32) : FVec F SOut .f32 :=
  let sel : IVec SFlat 32 := select (cmpi .slt idx (splat hb 0#32)) (addi idx (splat hb 33554432#32)) idx
  shapeCast SOut
    (Host.scatterAdd sd (broadcastInDim SOutFlat ![] hbo (constant S0 .f32 0x00000000#32)) (broadcastInDim SIdx2 ![0] hb2 sel) vals) hc

end Cert.Unpool

end
-- ==== Proof.KerRun.lean ====
/-
  The idealized kernel's run, read: its result array is the shared tail of the kernel's positions.

  The pallas_call walks the eight images; at image `t` the body adds `t·4194304` to every entry of the image's block
  of `argmax` and writes the block back, so the call's output array is `kerIdx argmax` (each block is the restriction of
  that one function, and the eight blocks tile the array). The host lines after the call are the shared tail of that
  array, reshaped to a flat list, and of the flat list of `x`.
-/
import proofs.«149650_j38457137168658_1_alg».proof.Proof.KernelIdealFrame
import proofs.«149650_j38457137168658_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerRun

open Cert.KernelIdeal Cert.KernelIdeal.Gen Cert.KernelIdeal.GenP

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- Both windows' block at point `t` is image `t`, and the body's grid coordinate there is `t`. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0
    ∧ (grid0.coords t 0).val = t.val :=
  (by decide +kernel : ∀ t : Fin grid0.N, _)

/-- The positions' array as the call finds it, at its literal type. -/
abbrev amax (c : Dev nD) : IVec S8x128x128x64 32 := V m c main_arg1

/-- What point `t` writes back is block `t` of the kernel's positions. -/
theorem flushed_eq (c : Dev nD) (t : Fin cfg0.N) :
    (dats m 0 c).flushed 1 t = ((cfg0.win 1).blk t).view.read (Elt F) (Cert.Unpool.kerIdx (V m c main_arg1)) := by
  show (cfg0.win 1).cut (grid0.coords t) ((dats m 0 c).after 1 t) = _
  rw [after0_1]
  unfold out0_1
  rw [View.canon_unit_zero hz]
  simp only [View.ld_unit_zero (S := S1x128x128x64) hz]
  funext j
  obtain ⟨e0, e1, e2, e3, e4, e5, e6, e7, e8⟩ := idx_facts t
  show amax m c (((cfg0.win 0).blk t).view.emb j) + BitVec.ofNat 32 (grid0.coords t 0).val * 4194304#32
    = amax m c (((cfg0.win 1).blk t).view.emb j) + BitVec.ofNat 32 ((((cfg0.win 1).blk t).view.emb j) 0).val * 4194304#32
  have h0 : ((cfg0.win 0).blk t).view.emb j = ((cfg0.win 1).blk t).view.emb j := by
    funext a; apply Fin.ext
    match a with
    | ⟨0, _⟩ => show win0_0.index t (0 : Fin 4) * 1 + 1 * (j 0).val = win0_1.index t (0 : Fin 4) * 1 + 1 * (j 0).val; omega
    | ⟨1, _⟩ => show win0_0.index t (1 : Fin 4) * 128 + 1 * (j 1).val = win0_1.index t (1 : Fin 4) * 128 + 1 * (j 1).val; omega
    | ⟨2, _⟩ => show win0_0.index t (2 : Fin 4) * 128 + 1 * (j 2).val = win0_1.index t (2 : Fin 4) * 128 + 1 * (j 2).val; omega
    | ⟨3, _⟩ => show win0_0.index t (3 : Fin 4) * 64 + 1 * (j 3).val = win0_1.index t (3 : Fin 4) * 64 + 1 * (j 3).val; omega
  have h1 : ((((cfg0.win 1).blk t).view.emb j) 0).val = (grid0.coords t 0).val := by
    show win0_1.index t (0 : Fin 4) * 1 + 1 * (j 0).val = _
    have hj : (j 0).val < 1 := (j 0).isLt
    omega
  rw [h0, h1]

/-- An index of the output array is in point `t`'s block iff each coordinate is in the block's range on its axis. -/
theorem mem_blk (t : Fin cfg0.N) (i : S8x128x128x64.Idx) :
    i ∈ ((cfg0.win 1).blk t).view.set ↔ ∀ a : Fin 4, win0_1.index t a * S1x128x128x64.size a ≤ (i a).val
      ∧ (i a).val < win0_1.index t a * S1x128x128x64.size a + S1x128x128x64.size a := by
  show i ∈ ((View.whole main_v0).slice (win0_1.rect t)).set ↔ _
  rw [View.set_slice_whole, Rect.mem_set_unit]
  exact Iff.rfl

/-- The eight blocks tile the array: index `i` lies in the block of the point that is its image number. -/
theorem cover (i : S8x128x128x64.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hi3 : (i 3).val < 64 := (i 3).isLt
  have hN : (i 0).val < cfg0.N := by rw [show cfg0.N = 8 from N_0]; exact hi0
  refine ⟨⟨(i 0).val, hN⟩, flush0_1 _, ?_⟩
  rw [mem_blk]
  obtain ⟨-, -, -, -, e4', e5, e6, e7, -⟩ := idx_facts ⟨(i 0).val, hN⟩
  have e4 : win0_1.index ⟨(i 0).val, hN⟩ (0 : Fin 4) = (i 0).val := e4'
  clear e4'
  intro a
  match a with
  | ⟨0, _⟩ => show win0_1.index _ (0 : Fin 4) * 1 ≤ (i 0).val ∧ (i 0).val < win0_1.index _ (0 : Fin 4) * 1 + 1; rw [e4]; omega
  | ⟨1, _⟩ => show win0_1.index _ (1 : Fin 4) * 128 ≤ (i 1).val ∧ (i 1).val < win0_1.index _ (1 : Fin 4) * 128 + 128; rw [e5]; omega
  | ⟨2, _⟩ => show win0_1.index _ (2 : Fin 4) * 128 ≤ (i 2).val ∧ (i 2).val < win0_1.index _ (2 : Fin 4) * 128 + 128; rw [e6]; omega
  | ⟨3, _⟩ => show win0_1.index _ (3 : Fin 4) * 64 ≤ (i 3).val ∧ (i 3).val < win0_1.index _ (3 : Fin 4) * 64 + 64; rw [e7]; omega

/-- So the call's output array ends holding the kernel's positions. -/
theorem final (c : Dev nD) : (dats m 0 c).arrAt 1 cfg0.N = Cert.Unpool.kerIdx (V m c main_arg1) :=
  (dats m 0 c).arrAt_eq_of_cover 1 (Cert.Unpool.kerIdx (V m c main_arg1)) (fun t _ => flushed_eq m c t) cover

/-- The kernel program's result as a function of its two argument arrays. -/
def out (x : FVec F S8x128x128x64 .f32) (a : IVec S8x128x128x64 32) : FVec F S8x256x256x64 .f32 :=
  Cert.Unpool.tail bcast_S_S8388608 bcast_S_S33554432 bcast_S8388608_S8388608x1_0 shapeCasts_S33554432_S8x256x256x64
    scatter_S33554432_S8388608x1_S8388608_n_0_0_1
    (shapeCast S8388608 (Cert.Unpool.kerIdx a) shapeCasts_S8x128x128x64_S8388608)
    (shapeCast S8388608 x shapeCasts_S8x128x128x64_S8388608)

/-- The host lines after the call leave the result buffer at `out` of the arguments. -/
theorem tail_eq (c : Dev nD) :
    Pipeline.afterTail₀ cfgs (dats m) 0 (V0 m) [hostOps1] c main_v11
      = out (m ((c.tc : Thread nD τ).loc main_arg0)) (m ((c.tc : Thread nD τ).loc main_arg1)) := by
  unfold Pipeline.afterTail₀
  show StableHlo.after hostOps1 _ (Proc.devRef .tc main_v11) = _
  after_results
  have hv0 : Pipeline.withArrays (cfgs 0).spec c (V0 m c) (fun w => (dats m 0 c).arrAt w (cfgs 0).N) (Proc.devRef .tc main_v0)
      = Cert.Unpool.kerIdx (m ((c.tc : Thread nD τ).loc main_arg1)) :=
    (Pipeline.withArrays_arr spec0 launch0.win.arr_inj c _ _ 1).trans ((final m c).trans (by rw [V_main_arg1]))
  have ha0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans
      (V_main_arg0 m c)
  rw [hv0, ha0]
  rfl

/-- The run, read: the result array at `out` of the arguments, the arguments unchanged. -/
theorem run : θ_run defs (onTc (τ := τ) (main (F := F))) ⟨m, fun _ => 0, ρ⟩ (fun r => ∀ c : Dev nD,
      r.2.mem ((c.tc : Thread nD τ).loc main_v11)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v11 (Pipeline.mem_restRefs_of main_v11 (by decide) (by decide))).trans (tail_eq m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c)))⟩)
    (run_main m ρ)

end Cert.KernelIdeal.KerRun

end
-- ==== Proof.RefRun.lean ====
/-
  The reference's run: every weakly fair execution of the reference program ends with its result array at the shared
  tail of the reference's positions, and with its arguments unchanged.
-/
import proofs.«149650_j38457137168658_1_alg».proof.ReferenceIdeal
import proofs.«149650_j38457137168658_1_alg».proof.Proof.Gen.ReferenceIdeal
import proofs.«149650_j38457137168658_1_alg».proof.Proof.Spec
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- The reference's result as a function of its two argument arrays. -/
def out (x : FVec F S8x128x128x64 .f32) (a : IVec S8x128x128x64 32) : FVec F S8x256x256x64 .f32 :=
  Cert.Unpool.tail bcast_S_S8388608 bcast_S_S33554432 bcast_S8388608_S8388608x1_0 shapeCasts_S33554432_S8x256x256x64
    scatter_S33554432_S8388608x1_S8388608_n_0_0_1
    (Cert.Unpool.refIdx bcast_S_S8388608 bcast_S8_S8x1048576_0 shapeCasts_S8x1048576_S8388608
      (shapeCast S8388608 a shapeCasts_S8x128x128x64_S8388608))
    (shapeCast S8388608 x shapeCasts_S8x128x128x64_S8388608)

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- @remainder's operations over its two arguments and one call's buffers, @_where's select in the call's place. -/
def remOps (arg0 : TRef sig ⟨S8388608, .i32⟩) (arg1 : TRef sig ⟨S_, .i32⟩) (φ : fn_remainder.Bufs) :
    List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S8388608 ![] bcast_S_S8388608),
    TRef.binary arg0 φ.v3 φ.v4 Host.remsi,
    TRef.nullary φ.c_1 (constantI S_ 32 0#32),
    TRef.unary φ.c_1 φ.v5 (broadcastInDim S8388608 ![] bcast_S_S8388608),
    TRef.binary φ.v4 φ.v5 φ.v6 (cmpi .ne),
    TRef.nullary φ.c_2 (constantI S_ 32 0#32),
    TRef.unary φ.c_2 φ.v7 (broadcastInDim S8388608 ![] bcast_S_S8388608),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S8388608 ![] bcast_S_S8388608),
    TRef.binary φ.v8 φ.v10 φ.v11 (cmpi .ne),
    TRef.binary φ.v11 φ.v6 φ.v12 andi,
    TRef.unary φ.call0.v0 φ.v13 (broadcastInDim S8388608 ![] bcast_S_S8388608),
    TRef.binary φ.v4 φ.v13 φ.v14 addi,
    TRef.ternary φ.v12 φ.v14 φ.v4 φ.v15 select ]

/-- @floor_divide's operations over its two arguments and one call's buffers, @_where_0's select in the call's place. -/
def fdivOps (arg0 : TRef sig ⟨S8388608, .i32⟩) (arg1 : TRef sig ⟨S_, .i32⟩) (φ : fn_floor_divide.Bufs) :
    List (HloOp τ sig (Elt F)) :=
  [ TRef.unary arg1 φ.v0 id,
    TRef.unary φ.v0 φ.v1 (broadcastInDim S8388608 ![] bcast_S_S8388608),
    TRef.binary arg0 φ.v1 φ.v2 Host.divsi,
    TRef.unary arg0 φ.v3 signi,
    TRef.unary φ.v0 φ.v4 signi,
    TRef.unary φ.v4 φ.v5 (broadcastInDim S8388608 ![] bcast_S_S8388608),
    TRef.binary φ.v3 φ.v5 φ.v6 (cmpi .ne),
    TRef.unary φ.v0 φ.v7 (broadcastInDim S8388608 ![] bcast_S_S8388608),
    TRef.binary arg0 φ.v7 φ.v8 Host.remsi,
    TRef.nullary φ.c (constantI S_ 32 0#32),
    TRef.unary φ.c φ.v9 (broadcastInDim S8388608 ![] bcast_S_S8388608),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S8388608 ![] bcast_S_S8388608),
    TRef.binary φ.v2 φ.v12 φ.v13 subi,
    TRef.ternary φ.v11 φ.v13 φ.v2 φ.call0.v0 select ]

/-- @remainder's body is the line of its operations. -/
theorem rem_body (arg0 : TRef sig ⟨S8388608, .i32⟩) (arg1 : TRef sig ⟨S_, .i32⟩) (φ : fn_remainder.Bufs) :
    fn_remainder.body (F := F) arg0 arg1 φ = seq (remOps arg0 arg1 φ) := rfl

/-- @floor_divide's body is the line of its operations. -/
theorem fdiv_body (arg0 : TRef sig ⟨S8388608, .i32⟩) (arg1 : TRef sig ⟨S_, .i32⟩) (φ : fn_floor_divide.Bufs) :
    fn_floor_divide.body (F := F) arg0 arg1 φ = seq (fdivOps arg0 arg1 φ) := rfl

/-- Every buffer @remainder's operations touch is a TensorCore reference. -/
theorem remOps_sub (arg0 : TRef sig ⟨S8388608, .i32⟩) (arg1 : TRef sig ⟨S_, .i32⟩) (φ : fn_remainder.Bufs) :
    (remOps (F := F) arg0 arg1 φ).Forall fun op => op.bufs ⊆ tcRefs τ sig := by
  unfold remOps
  exact ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Every buffer @floor_divide's operations touch is a TensorCore reference. -/
theorem fdivOps_sub (arg0 : TRef sig ⟨S8388608, .i32⟩) (arg1 : TRef sig ⟨S_, .i32⟩) (φ : fn_floor_divide.Bufs) :
    (fdivOps (F := F) arg0 arg1 φ).Forall fun op => op.bufs ⊆ tcRefs τ sig := by
  unfold fdivOps
  exact ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Each of @remainder's operations determines its result. -/
theorem remOps_fresh (arg0 : TRef sig ⟨S8388608, .i32⟩) (arg1 : TRef sig ⟨S_, .i32⟩) (φ : fn_remainder.Bufs) :
    ∀ op ∈ remOps (F := F) arg0 arg1 φ, op.fresh = ∅ := by
  unfold remOps
  intro _ h; (repeat (cases h with | head => rfl | tail _ h => ?_)); exact nomatch h

/-- Each of @floor_divide's operations determines its result. -/
theorem fdivOps_fresh (arg0 : TRef sig ⟨S8388608, .i32⟩) (arg1 : TRef sig ⟨S_, .i32⟩) (φ : fn_floor_divide.Bufs) :
    ∀ op ∈ fdivOps (F := F) arg0 arg1 φ, op.fresh = ∅ := by
  unfold fdivOps
  intro _ h; (repeat (cases h with | head => rfl | tail _ h => ?_)); exact nomatch h

/-- @main's operations before its first call. -/
def opsPre : List (HloOp τ sig (Elt F)) :=
  [ reshape main_arg1 main_v0 rfl shapeCasts_S8x128x128x64_S8388608,
    reshape main_arg0 main_v1 rfl shapeCasts_S8x128x128x64_S8388608,
    nullary main_v2 (iotaInDim S8 32 0),
    unary main_v2 main_v3 (broadcastInDim S8x1048576 ![0] bcast_S8_S8x1048576_0 : (⟨S8, .i32⟩ : BufTy).Contents (Elt F) → (⟨S8x1048576, .i32⟩ : BufTy).Contents (Elt F)),
    reshape main_v3 main_v4 rfl shapeCasts_S8x1048576_S8388608,
    nullary main_c (constantI S_ 32 4194304#32) ]

/-- @main's operations after its last call. -/
def opsTail : List (HloOp τ sig (Elt F)) :=
  [ nullary main_c_4 (constantI S_ 32 256#32),
    unary main_c_4 main_v10 (broadcastInDim S8388608 ![] bcast_S_S8388608 : (⟨S_, .i32⟩ : BufTy).Contents (Elt F) → (⟨S8388608, .i32⟩ : BufTy).Contents (Elt F)),
    binary main_v4 main_v10 main_v11 (muli : (⟨S8388608, .i32⟩ : BufTy).Contents (Elt F) → (⟨S8388608, .i32⟩ : BufTy).Contents (Elt F) → (⟨S8388608, .i32⟩ : BufTy).Contents (Elt F)),
    binary main_v11 main_v6 main_v12 (addi : (⟨S8388608, .i32⟩ : BufTy).Contents (Elt F) → (⟨S8388608, .i32⟩ : BufTy).Contents (Elt F) → (⟨S8388608, .i32⟩ : BufTy).Contents (Elt F)),
    nullary main_c_5 (constantI S_ 32 256#32),
    unary main_c_5 main_v13 (broadcastInDim S8388608 ![] bcast_S_S8388608 : (⟨S_, .i32⟩ : BufTy).Contents (Elt F) → (⟨S8388608, .i32⟩ : BufTy).Contents (Elt F)),
    binary main_v12 main_v13 main_v14 (muli : (⟨S8388608, .i32⟩ : BufTy).Contents (Elt F) → (⟨S8388608, .i32⟩ : BufTy).Contents (Elt F) → (⟨S8388608, .i32⟩ : BufTy).Contents (Elt F)),
    binary main_v14 main_v8 main_v15 (addi : (⟨S8388608, .i32⟩ : BufTy).Contents (Elt F) → (⟨S8388608, .i32⟩ : BufTy).Contents (Elt F) → (⟨S8388608, .i32⟩ : BufTy).Contents (Elt F)),
    nullary main_c_6 (constantI S_ 32 64#32),
    unary main_c_6 main_v16 (broadcastInDim S8388608 ![] bcast_S_S8388608 : (⟨S_, .i32⟩ : BufTy).Contents (Elt F) → (⟨S8388608, .i32⟩ : BufTy).Contents (Elt F)),
    binary main_v15 main_v16 main_v17 (muli : (⟨S8388608, .i32⟩ : BufTy).Contents (Elt F) → (⟨S8388608, .i32⟩ : BufTy).Contents (Elt F) → (⟨S8388608, .i32⟩ : BufTy).Contents (Elt F)),
    binary main_v17 main_v9 main_v18 (addi : (⟨S8388608, .i32⟩ : BufTy).Contents (Elt F) → (⟨S8388608, .i32⟩ : BufTy).Contents (Elt F) → (⟨S8388608, .i32⟩ : BufTy).Contents (Elt F)),
    nullary main_cst (constant S_ .f32 0x00000000#32),
    unary main_cst main_v19 (broadcastInDim S33554432 ![] bcast_S_S33554432 : (⟨S_, .f32⟩ : BufTy).Contents (Elt F) → (⟨S33554432, .f32⟩ : BufTy).Contents (Elt F)),
    nullary main_c_7 (constantI S_ 32 0#32),
    unary main_c_7 main_v20 (broadcastInDim S8388608 ![] bcast_S_S8388608 : (⟨S_, .i32⟩ : BufTy).Contents (Elt F) → (⟨S8388608, .i32⟩ : BufTy).Contents (Elt F)),
    binary main_v18 main_v20 main_v21 (cmpi .slt : (⟨S8388608, .i32⟩ : BufTy).Contents (Elt F) → (⟨S8388608, .i32⟩ : BufTy).Contents (Elt F) → (⟨S8388608, .i1⟩ : BufTy).Contents (Elt F)),
    nullary main_c_8 (constantI S_ 32 33554432#32),
    unary main_c_8 main_v22 (broadcastInDim S8388608 ![] bcast_S_S8388608 : (⟨S_, .i32⟩ : BufTy).Contents (Elt F) → (⟨S8388608, .i32⟩ : BufTy).Contents (Elt F)),
    binary main_v18 main_v22 main_v23 (addi : (⟨S8388608, .i32⟩ : BufTy).Contents (Elt F) → (⟨S8388608, .i32⟩ : BufTy).Contents (Elt F) → (⟨S8388608, .i32⟩ : BufTy).Contents (Elt F)),
    ternary main_v21 main_v23 main_v18 main_v24 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v24 main_v25 (broadcastInDim S8388608x1 ![0] bcast_S8388608_S8388608x1_0 : (⟨S8388608, .i32⟩ : BufTy).Contents (Elt F) → (⟨S8388608x1, .i32⟩ : BufTy).Contents (Elt F)),
    ternary main_v19 main_v25 main_v1 main_v26 ((fun x i u => Host.scatterAdd scatter_S33554432_S8388608x1_S8388608_n_0_0_1 x i u) : (⟨S33554432, .f32⟩ : BufTy).Contents (Elt F) → (⟨S8388608x1, .i32⟩ : BufTy).Contents (Elt F) → (⟨S8388608, .f32⟩ : BufTy).Contents (Elt F) → (⟨S33554432, .f32⟩ : BufTy).Contents (Elt F)),
    reshape main_v26 main_v27 rfl shapeCasts_S33554432_S8x256x256x64 ]

/-- Every buffer the operations before the first call and after the last touch is a TensorCore reference, and each of
    them determines its result. -/
theorem opsPre_sub : (opsPre (F := F)).Forall fun op => op.bufs ⊆ tcRefs τ sig := by
  unfold opsPre
  exact ⟨reshape_bufs_sub .., reshape_bufs_sub .., nullary_bufs_sub .., unary_bufs_sub .., reshape_bufs_sub .., nullary_bufs_sub ..⟩

theorem opsTail_sub : (opsTail (F := F)).Forall fun op => op.bufs ⊆ tcRefs τ sig := by
  unfold opsTail
  exact ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem opsPre_fresh : ∀ op ∈ opsPre (F := F), op.fresh = ∅ := by
  unfold opsPre
  intro _ h; (repeat (cases h with | head => rfl | tail _ h => ?_)); exact nomatch h

theorem opsTail_fresh : ∀ op ∈ opsTail (F := F), op.fresh = ∅ := by
  unfold opsTail
  intro _ h; (repeat (cases h with | head => rfl | tail _ h => ?_)); exact nomatch h

/-- @main's operations in order, each call's operations in the call's place over the call's buffers. -/
def ops : List (HloOp τ sig (Elt F)) :=
  opsPre ++ remOps (.of main_v0) (.of main_c) main_call0
    ++ nullary main_c_0 (constantI S_ 32 16384#32) :: fdivOps (.of main_v5) (.of main_c_0) main_call1
    ++ nullary main_c_1 (constantI S_ 32 16384#32) :: remOps (.of main_v0) (.of main_c_1) main_call2
    ++ nullary main_c_2 (constantI S_ 32 64#32) :: fdivOps (.of main_v7) (.of main_c_2) main_call3
    ++ nullary main_c_3 (constantI S_ 32 64#32) :: remOps (.of main_v0) (.of main_c_3) main_call4
    ++ opsTail

/-- @main is the straight line of `ops`: each call unfolds to its callee's line, and the sequencing reassociates. -/
theorem main_eq (c : Dev nD) : main (F := F) c = seq ops := rfl

/-- A property of every operation of `ops`, from the property on each of its pieces. -/
theorem ops_mem {P : HloOp τ sig (Elt F) → Prop} (hpre : ∀ op ∈ opsPre (F := F), P op) (htail : ∀ op ∈ opsTail (F := F), P op)
    (hrem : ∀ arg0 arg1 φ, ∀ op ∈ remOps (F := F) arg0 arg1 φ, P op) (hfdiv : ∀ arg0 arg1 φ, ∀ op ∈ fdivOps (F := F) arg0 arg1 φ, P op)
    (hnull : ∀ (y : Ref sig .tc) (v : y.ty.Contents (Elt F)) (hy), P (nullary (τ := τ) y v hy)) :
    ∀ op ∈ ops (F := F), P op := by
  intro op h
  simp only [ops, List.mem_append, List.mem_cons] at h
  rcases h with (((((h | h) | rfl | h) | rfl | h) | rfl | h) | rfl | h) | h
  · exact hpre _ h
  · exact hrem _ _ _ _ h
  · exact hnull _ _ _
  · exact hfdiv _ _ _ _ h
  · exact hnull _ _ _
  · exact hrem _ _ _ _ h
  · exact hnull _ _ _
  · exact hfdiv _ _ _ _ h
  · exact hnull _ _ _
  · exact hrem _ _ _ _ h
  · exact htail _ h

/-- Every buffer the operations touch is a TensorCore reference. -/
theorem ops_sub : (ops (F := F)).Forall fun op => op.bufs ⊆ tcRefs τ sig :=
  List.forall_iff_forall_mem.mpr (ops_mem (List.forall_iff_forall_mem.mp opsPre_sub) (List.forall_iff_forall_mem.mp opsTail_sub)
    (fun a d φ => List.forall_iff_forall_mem.mp (remOps_sub a d φ)) (fun a d φ => List.forall_iff_forall_mem.mp (fdivOps_sub a d φ))
    (fun y v hy => nullary_bufs_sub y v hy))

/-- Each operation determines its result. -/
theorem ops_fresh : ∀ op ∈ ops (F := F), op.fresh = ∅ :=
  ops_mem opsPre_fresh opsTail_fresh remOps_fresh fdivOps_fresh (fun _ _ _ => rfl)

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has each
    TensorCore buffer at the fold of `ops` over the launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

attribute [local irreducible] Host.scatterAdd Host.remsi Host.divsi in
set_option maxRecDepth 8192 in
set_option maxHeartbeats 1000000 in
/-- The fold at the result buffer is `out` of the arguments' contents: each operation's result is read at its own buffer and
    passed over at every other, the typed references' transports are the identity at literal references, and the composed
    term is `out` unfolded. The division, the remainder and the scatter stay folded: the equation never looks inside them. -/
theorem out_eq (V : Valuation τ sig (Elt F)) :
    after ops V (main_v27 : DevRef τ sig) = out (V (main_arg0 : DevRef τ sig)) (V (main_arg1 : DevRef τ sig)) := by
  simp only [ops, opsPre, opsTail, remOps, fdivOps, after_app]
  after_results_simp
  rfl

set_option maxRecDepth 8192 in
set_option maxHeartbeats 1000000 in
/-- No operation writes the first argument. -/
theorem arg0_eq (V : Valuation τ sig (Elt F)) : after ops V (main_arg0 : DevRef τ sig) = V (main_arg0 : DevRef τ sig) := by
  simp only [ops, opsPre, opsTail, remOps, fdivOps, after_app]
  after_results_simp

set_option maxRecDepth 8192 in
set_option maxHeartbeats 1000000 in
/-- No operation writes the second argument. -/
theorem arg1_eq (V : Valuation τ sig (Elt F)) : after ops V (main_arg1 : DevRef τ sig) = V (main_arg1 : DevRef τ sig) := by
  simp only [ops, opsPre, opsTail, remOps, fdivOps, after_app]
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v27).trans (out_eq _), (h c main_arg0).trans (arg0_eq _),
      (h c main_arg1).trans (arg1_eq _)⟩) (run_ops m ρ)

end Cert.ReferenceIdeal.RefRun

end
-- ==== Proof.Domain.lean ====
/-
  The precondition read back: where the printed predicate is all ones, every entry of `argmax` is a position inside
  one image's upsampled volume, `0 ≤ argmax < 4194304` as a signed word.
-/
import proofs.«149650_j38457137168658_1_alg».proof.Pre_finite_inputs
import proofs.«149650_j38457137168658_1_alg».proof.Proof.Gen.Pre_finite_inputs
import Idealize.ShloMosaic.Lib.ReduceAll

noncomputable section

namespace Cert.Pre_finite_inputs.Domain

open Idealize.ShloMosaic Cert.Pre_finite_inputs Cert.Pre_finite_inputs.Gen

variable {F : FTy → Type} [FloatOps F]

instance : Subsingleton S_.Idx := ⟨fun a b => funext fun d => d.elim0⟩

theorem ofBool_one {b : Bool} (h : BitVec.ofBool b = 1#1) : b = true := by
  cases b
  · exact absurd h (by decide)
  · rfl

/-- The second conjunct of the precondition, entry by entry. -/
theorem range_of_pre (x : FVec F S8x128x128x64 .f32) (a : IVec S8x128x128x64 32)
    (h : fn (F := F) x a = fun _ => 1#1) (j : S8x128x128x64.Idx) :
    (0#32).sle (a j) = true ∧ (a j).slt 4194304#32 = true := by
  have h0 := congrFun h (fun d => d.elim0)
  dsimp only [fn] at h0
  obtain ⟨-, h9⟩ := IntOp.andi_eq_one.1 h0
  have hj := Host.reduce_andi_all _ _ _ _ _ h9 j
  obtain ⟨hge, hlt⟩ := IntOp.andi_eq_one.1 hj
  exact ⟨ofBool_one hge, ofBool_one hlt⟩

end Cert.Pre_finite_inputs.Domain

end
-- ==== Proof.RefIdx.lean ====
/-
  The arithmetic that joins the two programs: for a position `0 ≤ a < 4194304` the reference's decoding into
  row, column and channel and its recombination with the image number `b` give back `a + b·4194304`.
-/
import proofs.«149650_j38457137168658_1_alg».proof.Proof.Spec
import Idealize.ShloMosaic.Lib.Affine

noncomputable section

namespace Cert.Unpool

open Idealize.ShloMosaic

/-! ### Words -/

/-- A word that is nonnegative as a signed number has its top bit clear. -/
theorem two_mul_toNat_lt_of_nonneg {y : BitVec 32} (h0 : (0#32).sle y = true) : 2 * y.toNat < 2 ^ 32 := by
  rw [BitVec.sle_iff_toInt_le] at h0
  have h := BitVec.toInt_eq_msb_cond y
  cases hm : y.msb
  · exact BitVec.msb_eq_false_iff_two_mul_lt.mp hm
  · rw [hm] at h
    have := y.isLt
    simp at h h0
    omega

/-- Below a small literal as signed numbers is below it as natural numbers. -/
theorem toNat_lt_of_slt {y : BitVec 32} (hy : 2 * y.toNat < 2 ^ 32) (K : Nat) (hK : 2 * K < 2 ^ 32)
    (h1 : y.slt (BitVec.ofNat 32 K) = true) : y.toNat < K := by
  rw [BitVec.slt_iff_toInt_lt, BitVec.toInt_eq_toNat_of_lt hy,
    BitVec.toInt_eq_toNat_of_lt (by rw [BitVec.toNat_ofNat]; omega), BitVec.toNat_ofNat] at h1
  omega

/-- The truncated remainder of a nonnegative word by a positive literal is the remainder of natural numbers. -/
theorem remsi_eq {y : BitVec 32} (hy : 2 * y.toNat < 2 ^ 32) (k : Nat) (hk : 0 < k) (hk' : 2 * k < 2 ^ 32) :
    IntOp.remsi .host y (BitVec.ofNat 32 k) = BitVec.ofNat 32 (y.toNat % k) := by
  apply BitVec.eq_of_toNat_eq
  have hlt : y.toNat % k < k := Nat.mod_lt _ hk
  rw [IntOp.toNat_remsi .host hy k hk hk', BitVec.toNat_ofNat,
    Nat.mod_eq_of_lt (a := y.toNat % k) (b := 2 ^ 32) (by omega)]

/-- The truncated quotient of a nonnegative word by a positive literal is the quotient of natural numbers. -/
theorem divsi_eq {y : BitVec 32} (hy : 2 * y.toNat < 2 ^ 32) (k : Nat) (hk : 0 < k) (hk' : 2 * k < 2 ^ 32) :
    IntOp.divsi .host y (BitVec.ofNat 32 k) = BitVec.ofNat 32 (y.toNat / k) := by
  have hkN : (BitVec.ofNat 32 k).toNat = k := by rw [BitVec.toNat_ofNat]; omega
  have hpos : 0 < (BitVec.ofNat 32 k).toInt := by rw [BitVec.toInt_eq_toNat_of_lt (by omega)]; omega
  have hm : y.msb = false := BitVec.msb_eq_false_iff_two_mul_lt.mpr hy
  have hkm : (BitVec.ofNat 32 k).msb = false := BitVec.msb_eq_false_iff_two_mul_lt.mpr (by omega)
  have hle : y.toNat / k ≤ y.toNat := Nat.div_le_self _ _
  have := y.isLt
  unfold IntOp.divsi
  rw [if_neg (IntOp.not_corner_of_pos hpos), BitVec.sdiv_eq, hm, hkm]
  apply BitVec.eq_of_toNat_eq
  show (y / BitVec.ofNat 32 k).toNat = _
  rw [BitVec.toNat_udiv, hkN, BitVec.toNat_ofNat, Nat.mod_eq_of_lt (a := y.toNat / k) (b := 2 ^ 32) (by omega)]

/-- A positive literal is not the zero word. -/
theorem ofNat_ne_zero (k : Nat) (hk : 0 < k) (hk' : 2 * k < 2 ^ 32) : BitVec.ofNat 32 k ≠ 0#32 := by
  intro h
  have h' := congrArg BitVec.toNat h
  rw [BitVec.toNat_ofNat] at h'
  simp at h'
  omega

/-- The guard against a zero divisor keeps a positive literal. -/
theorem divisor_select (k : Nat) (hk : 0 < k) (hk' : 2 * k < 2 ^ 32) :
    Scalar.select (IntOp.cmpi .eq (BitVec.ofNat 32 k) 0#32) (1#32) (BitVec.ofNat 32 k) = BitVec.ofNat 32 k := by
  have hne : (BitVec.ofNat 32 k == 0#32) = false := beq_eq_false_iff_ne.mpr (ofNat_ne_zero k hk hk')
  show (if BitVec.ofBool (BitVec.ofNat 32 k == 0#32) = 1#1 then 1#32 else BitVec.ofNat 32 k) = _
  rw [hne]
  exact if_neg (by decide)

/-- A word with its top bit clear does not test negative. -/
theorem cmpi_slt_zero {r : BitVec 32} (h : 2 * r.toNat < 2 ^ 32) : IntOp.cmpi .slt r 0#32 = 0#1 := by
  show BitVec.ofBool (r.slt 0#32) = 0#1
  rw [BitVec.slt_zero_eq_msb, BitVec.msb_eq_false_iff_two_mul_lt.mpr h]
  rfl

/-- A selection whose condition has a false first conjunct takes its second branch. -/
theorem select_and_false {α : Type} (c : BitVec 1) (x y : α) :
    Scalar.select (IntOp.andi (0#1) c) x y = y := by
  have h : IntOp.andi (0#1) c = 0#1 := by revert c; decide
  rw [h]
  exact if_neg (by decide)

/-- A selection whose condition has a false second conjunct takes its second branch. -/
theorem select_and_false' {α : Type} (c : BitVec 1) (x y : α) :
    Scalar.select (IntOp.andi c (0#1)) x y = y := by
  have h : IntOp.andi c (0#1) = 0#1 := by revert c; decide
  rw [h]
  exact if_neg (by decide)

/-! ### The floor remainder and the floor quotient at one index -/

/-- The sign of a positive literal is one. -/
theorem signi_const_pos {s : Shape} (k : Nat) (hk : 0 < k) (hk' : 2 * k < 2 ^ 32) (i : s.Idx) :
    signi (constantI s 32 (BitVec.ofNat 32 k)) i = 1#32 := by
  have hd0 : ¬ (BitVec.ofNat 32 k = 0) := ofNat_ne_zero k hk hk'
  have hkm : (BitVec.ofNat 32 k).msb = false :=
    BitVec.msb_eq_false_iff_two_mul_lt.mpr (by rw [BitVec.toNat_ofNat]; omega)
  show (if BitVec.ofNat 32 k = 0 then (0 : BitVec 32) else if (BitVec.ofNat 32 k).msb then -1 else 1) = 1#32
  rw [if_neg hd0, hkm]
  rfl

/-- The sign of a nonnegative entry is zero at zero and one elsewhere. -/
theorem signi_of_nonneg {s : Shape} (y : IVec s 32) (i : s.Idx) (hy : 2 * (y i).toNat < 2 ^ 32) :
    signi y i = if y i = 0 then 0#32 else 1#32 := by
  have hm : (y i).msb = false := BitVec.msb_eq_false_iff_two_mul_lt.mpr hy
  show (if y i = 0 then (0 : BitVec 32) else if (y i).msb then -1 else 1) = _
  rw [hm]
  rfl

/-- The floor remainder of a nonnegative entry by a positive literal: the remainder of natural numbers, never
    corrected, since neither it nor the divisor is negative. -/
theorem remF_apply (hb : S0.BroadcastsInDim SFlat (![] : Fin 0 → Fin SFlat.rank)) (a : IVec SFlat 32) (n : SFlat.Idx)
    (hy : 2 * (a n).toNat < 2 ^ 32) (k : Nat) (hk : 0 < k) (hk' : 2 * k < 2 ^ 32) :
    remF hb a (constantI S0 32 (BitVec.ofNat 32 k)) n = BitVec.ofNat 32 ((a n).toNat % k) := by
  have hlt : (a n).toNat % k < k := Nat.mod_lt _ hk
  have hr : 2 * (BitVec.ofNat 32 ((a n).toNat % k)).toNat < 2 ^ 32 := by rw [BitVec.toNat_ofNat]; omega
  have hd : 2 * (BitVec.ofNat 32 k).toNat < 2 ^ 32 := by rw [BitVec.toNat_ofNat]; omega
  simp only [remF, splat, select, cmpi, andi, addi, Host.remsi, broadcastInDim, constantI]
  rw [divisor_select k hk hk', remsi_eq hy k hk hk', cmpi_slt_zero hr, cmpi_slt_zero hd,
    show IntOp.cmpi .ne (0#1) (0#1) = 0#1 from by decide, select_and_false]

/-- The floor quotient of a nonnegative entry by a positive literal: the quotient of natural numbers, never
    corrected, since the signs differ only at the entry zero, whose remainder is zero. -/
theorem fdivF_apply (hb : S0.BroadcastsInDim SFlat (![] : Fin 0 → Fin SFlat.rank)) (y : IVec SFlat 32) (n : SFlat.Idx)
    (hy : 2 * (y n).toNat < 2 ^ 32) (k : Nat) (hk : 0 < k) (hk' : 2 * k < 2 ^ 32) :
    fdivF hb y (constantI S0 32 (BitVec.ofNat 32 k)) n = BitVec.ofNat 32 ((y n).toNat / k) := by
  simp only [fdivF, splat, select, cmpi, andi, subi, Host.remsi, Host.divsi, broadcastInDim]
  rw [signi_const_pos k hk hk', signi_of_nonneg y n hy]
  simp only [constantI]
  rw [divsi_eq hy k hk hk', remsi_eq hy k hk hk']
  by_cases hz : y n = 0
  · have hz' : (y n).toNat = 0 := by rw [hz]; rfl
    rw [hz', Nat.zero_mod, show IntOp.cmpi .ne (BitVec.ofNat 32 0) 0#32 = 0#1 from by decide, select_and_false']
  · rw [if_neg hz, show IntOp.cmpi .ne (1#32) (1#32) = 0#1 from by decide, select_and_false]

/-! ### The image number at one index -/

/-- The image number of flat index `n` is `n div 1048576`: the first coordinate of the index of `[8, 1048576]` at
    the same row-major position. -/
theorem batchOf_apply (hbB : SB.BroadcastsInDim SB2 (![0] : Fin 1 → Fin SB2.rank)) (hcB : SB2.ShapeCasts SFlat) (n : SFlat.Idx) :
    batchOf hbB hcB n = BitVec.ofNat 32 ((n 0).val / 1048576) := by
  have e := Shape.rowMajor_reshapeEquiv hcB n
  rw [Shape.rowMajor_val_two, Shape.rowMajor_val_one] at e
  have e' : (Shape.reshapeEquiv hcB n 0).val * 1048576 + (Shape.reshapeEquiv hcB n 1).val = (n 0).val := e
  have hk1 : (Shape.reshapeEquiv hcB n 1).val < 1048576 := (Shape.reshapeEquiv hcB n 1).isLt
  have h8 : ¬ ((![8] : Fin 1 → Nat) 0 = 1) := by decide
  simp only [batchOf, shapeCast, broadcastInDim, iotaInDim]
  rw [dif_neg h8]
  show BitVec.ofNat 32 (Shape.reshapeEquiv hcB n 0).val = _
  congr 1
  omega

/-! ### The recombination -/

/-- A scalar word spread over the flat shape, read at an index. -/
theorem splat_apply (hb : S0.BroadcastsInDim SFlat (![] : Fin 0 → Fin SFlat.rank)) (v : BitVec 32) (n : SFlat.Idx) :
    splat hb v n = v := rfl

/-- The reference's position at a flat index whose entry lies in `[0, 4194304)`: with `x` the entry and `b` the image
    number, `((b·256 + x div 16384)·256 + (x mod 16384) div 64)·64 + x mod 64 = b·4194304 + x`, every term below `2^25`. -/
theorem refIdx_apply (hb : S0.BroadcastsInDim SFlat (![] : Fin 0 → Fin SFlat.rank)) (hbB : SB.BroadcastsInDim SB2 (![0] : Fin 1 → Fin SB2.rank))
    (hcB : SB2.ShapeCasts SFlat) (a : IVec SFlat 32) (n : SFlat.Idx)
    (h0 : (0#32).sle (a n) = true) (h1 : (a n).slt 4194304#32 = true) :
    refIdx hb hbB hcB a n = a n + BitVec.ofNat 32 ((n 0).val / 1048576) * 4194304#32 := by
  have hy : 2 * (a n).toNat < 2 ^ 32 := two_mul_toNat_lt_of_nonneg h0
  have hx : (a n).toNat < 4194304 := toNat_lt_of_slt hy 4194304 (by omega) h1
  have hn : (n 0).val < 8388608 := (n 0).isLt
  have hax : a n = BitVec.ofNat 32 (a n).toNat := by
    apply BitVec.eq_of_toNat_eq
    rw [BitVec.toNat_ofNat, Nat.mod_eq_of_lt (a n).isLt]
  -- the three remainders
  have r1 : remF hb a (constantI S0 32 4194304#32) n = BitVec.ofNat 32 ((a n).toNat % 4194304) :=
    remF_apply hb a n hy 4194304 (by omega) (by omega)
  have r2 : remF hb a (constantI S0 32 16384#32) n = BitVec.ofNat 32 ((a n).toNat % 16384) :=
    remF_apply hb a n hy 16384 (by omega) (by omega)
  have r3 : remF hb a (constantI S0 32 64#32) n = BitVec.ofNat 32 ((a n).toNat % 64) :=
    remF_apply hb a n hy 64 (by omega) (by omega)
  -- the two quotients
  have q1 : fdivF hb (remF hb a (constantI S0 32 4194304#32)) (constantI S0 32 16384#32) n
      = BitVec.ofNat 32 ((a n).toNat % 4194304 / 16384) := by
    rw [fdivF_apply hb _ n (by rw [r1, BitVec.toNat_ofNat]; omega) 16384 (by omega) (by omega), r1, BitVec.toNat_ofNat]
    congr 1
    omega
  have q2 : fdivF hb (remF hb a (constantI S0 32 16384#32)) (constantI S0 32 64#32) n
      = BitVec.ofNat 32 ((a n).toNat % 16384 / 64) := by
    rw [fdivF_apply hb _ n (by rw [r2, BitVec.toNat_ofNat]; omega) 64 (by omega) (by omega), r2, BitVec.toNat_ofNat]
    congr 1
    omega
  show IntOp.addi (IntOp.muli (IntOp.addi (IntOp.muli (IntOp.addi (IntOp.muli (batchOf hbB hcB n) (splat hb 256#32 n))
      (fdivF hb (remF hb a (constantI S0 32 4194304#32)) (constantI S0 32 16384#32) n)) (splat hb 256#32 n))
      (fdivF hb (remF hb a (constantI S0 32 16384#32)) (constantI S0 32 64#32) n)) (splat hb 64#32 n))
      (remF hb a (constantI S0 32 64#32) n) = _
  rw [batchOf_apply, q1, q2, r3, splat_apply, splat_apply]
  conv_rhs => rw [hax]
  simp only [IntOp.addi, IntOp.muli, ← BitVec.ofNat_add, ← BitVec.ofNat_mul]
  congr 1
  omega

end Cert.Unpool

end
-- ==== Proof.Bridge.lean ====
/-
  The two position arrays are one under the precondition.

  Flattening `[8,128,128,64]` row-major sends the array index `(b,i,j,k)` to `n = ((b·128 + i)·128 + j)·64 + k`, so
  `b = n div 1048576`: the kernel's positions, flattened, are `argmax n + (n div 1048576)·4194304` at flat index `n`,
  which is what the reference's decoding gives where `0 ≤ argmax n < 4194304`.
-/
import proofs.«149650_j38457137168658_1_alg».proof.Proof.Spec
import proofs.«149650_j38457137168658_1_alg».proof.Proof.RefIdx

noncomputable section

namespace Cert.Unpool

open Idealize.ShloMosaic

/-- The kernel's positions read at a flat index. -/
theorem flat_kerIdx (hc : SIn.ShapeCasts SFlat) (a : IVec SIn 32) (n : SFlat.Idx) :
    shapeCast SFlat (kerIdx a) hc n = shapeCast SFlat a hc n + BitVec.ofNat 32 ((n 0).val / 1048576) * 4194304#32 := by
  unfold shapeCast kerIdx
  have hr : ((((Shape.reshapeEquiv hc n) 0).val * 128 + ((Shape.reshapeEquiv hc n) 1).val) * 128
      + ((Shape.reshapeEquiv hc n) 2).val) * 64 + ((Shape.reshapeEquiv hc n) 3).val = (n 0).val := by
    have h := Shape.rowMajor_reshapeEquiv hc n
    rw [Shape.rowMajor_val_four, Shape.rowMajor_val_one] at h
    exact h
  have h1 : ((Shape.reshapeEquiv hc n) 1).val < 128 := ((Shape.reshapeEquiv hc n) 1).isLt
  have h2 : ((Shape.reshapeEquiv hc n) 2).val < 128 := ((Shape.reshapeEquiv hc n) 2).isLt
  have h3 : ((Shape.reshapeEquiv hc n) 3).val < 64 := ((Shape.reshapeEquiv hc n) 3).isLt
  have hb : ((Shape.reshapeEquiv hc n) 0).val = (n 0).val / 1048576 := by omega
  show a (Shape.reshapeEquiv hc n) + BitVec.ofNat 32 ((Shape.reshapeEquiv hc n) 0).val * 4194304#32 = _
  rw [hb]

/-- Where every entry of `argmax` lies in `[0, 4194304)`, the reference's positions are the kernel's, flattened. -/
theorem refIdx_eq_kerIdx (hb : S0.BroadcastsInDim SFlat (![] : Fin 0 → Fin SFlat.rank)) (hbB : SB.BroadcastsInDim SB2 (![0] : Fin 1 → Fin SB2.rank))
    (hcB : SB2.ShapeCasts SFlat) (hc : SIn.ShapeCasts SFlat) (a : IVec SIn 32)
    (hdom : ∀ j : SIn.Idx, (0#32).sle (a j) = true ∧ (a j).slt 4194304#32 = true) :
    refIdx hb hbB hcB (shapeCast SFlat a hc) = shapeCast SFlat (kerIdx a) hc := by
  funext n
  rw [flat_kerIdx]
  exact refIdx_apply hb hbB hcB (shapeCast SFlat a hc) n (hdom _).1 (hdom _).2

end Cert.Unpool

end
-- ==== Proof.lean ====
/-
  The certificate of the max-unpooling scatter: `Cert.Claim`.

  The operator adds each pooled value `x[b,i,j,k]` into a zero array `[8,256,256,64]` at the flat position
  `b·4194304 + argmax[b,i,j,k]`, where `argmax` is a flat position inside one image's upsampled volume
  `[256,256,64]` — the precondition's second conjunct, `0 ≤ argmax < 4194304`. The kernel forms that position with one
  addition inside a pallas_call over the eight images; the reference decodes `argmax` into row, column and channel by
  floor division and floor remainder and recombines them with the image number. On the stated domain the decoding is
  exact and the recombination gives the same word (Proof/RefIdx.lean, Proof/Bridge.lean), so the two position arrays
  are equal; everything after them — taking a negative position from the end, the accumulating scatter into zeros, the
  reshape — is the same function in both programs (`Cert.Unpool.tail`, Proof/Spec.lean) and is never opened. The sums
  are sums of extended reals in both programs, so no law of arithmetic on the values is used and finiteness of `x` is
  not needed.

  The frames: the word-level kernel and its idealization run their one pallas_call and fourteen host lines and leave
  the arguments as they were (Proof/KernelFrame.lean, Proof/KernelIdealFrame.lean); the reference is a straight line of
  host operations (Proof/RefRun.lean). The ideal pass rewrote nothing, so `preserves` has no conjunct.
-/
import proofs.«149650_j38457137168658_1_alg».proof.Defs
import proofs.«149650_j38457137168658_1_alg».proof.Proof.Gen.Kernel
import proofs.«149650_j38457137168658_1_alg».proof.Proof.Gen.KernelIdeal
import proofs.«149650_j38457137168658_1_alg».proof.Proof.Gen.ReferenceIdeal
import proofs.«149650_j38457137168658_1_alg».proof.Proof.Gen.Pre_finite_inputs
import proofs.«149650_j38457137168658_1_alg».proof.Proof.KernelFrame
import proofs.«149650_j38457137168658_1_alg».proof.Proof.KernelIdealFrame
import proofs.«149650_j38457137168658_1_alg».proof.Proof.KerRun
import proofs.«149650_j38457137168658_1_alg».proof.Proof.RefRun
import proofs.«149650_j38457137168658_1_alg».proof.Proof.Domain
import proofs.«149650_j38457137168658_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates, faults nowhere and keeps its arguments. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- At `Ideal`, from memories agreeing on the arguments, the kernel ends at the shared tail of `argmax + b·4194304` and
    the reference at the shared tail of its decoded and recombined positions, which on `0 ≤ argmax < 4194304` are the
    same array. -/
theorem algebraic : Cert.algebraic_KernelIdeal_ReferenceIdeal := by
  intro m ρ m' ρ' hpre hagree
  refine ⟨fun c => Cert.KernelIdeal.KerRun.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerRun.run (F := Ideal) m ρ, ?_⟩
  refine (θ_run Cert.ReferenceIdeal.defs _ _).mono (fun r h c => ⟨(h c).1.trans ?_, (h c).2⟩)
    (Cert.ReferenceIdeal.RefRun.run (F := Ideal) m' ρ')
  rw [(hagree c).1, (hagree c).2]
  have hdom := Cert.Pre_finite_inputs.Domain.range_of_pre (F := Ideal) _ _ (hpre c)
  unfold Cert.ReferenceIdeal.RefRun.out Cert.KernelIdeal.KerRun.out
  rw [Cert.Unpool.refIdx_eq_kerIdx _ _ _ Cert.ReferenceIdeal.Gen.shapeCasts_S8x128x128x64_S8388608 _ hdom]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
